-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  main_v3
-- ==== Kernel.lean ====
abbrev S2048x64 : Shape := ⟨2, ![2048, 64]⟩
abbrev S2048x2048 : Shape := ⟨2, ![2048, 2048]⟩
abbrev S256x64 : Shape := ⟨2, ![256, 64]⟩
abbrev S256x256 : Shape := ⟨2, ![256, 256]⟩
abbrev S256x1x64 : Shape := ⟨3, ![256, 1, 64]⟩
abbrev S1x256x64 : Shape := ⟨3, ![1, 256, 64]⟩
abbrev S256x256x64 : Shape := ⟨3, ![256, 256, 64]⟩

abbrev nBuf : Space → Nat
  | .hbm => 2
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x256, .f32⟩
  | .local _ .vmem, ⟨5, _⟩ => ⟨S256x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x64_S256x64_0_0 : ∀ a, (![0, 0] : Fin 2 → Nat) a + S256x64.size a ≤ S256x64.size a
  h_S256x64 : 0 < S256x64.numel
  shapeCasts_S256x64_S256x1x64 : S256x64.ShapeCasts S256x1x64
  shapeCasts_S256x64_S1x256x64 : S256x64.ShapeCasts S1x256x64
  broadcasts_S256x1x64_S256x256x64 : S256x1x64.Broadcasts S256x256x64
  broadcasts_S1x256x64_S256x256x64 : S1x256x64.Broadcasts S256x256x64
  reduces_S256x256x64_S256x256 : S256x256x64.Reduces [2] S256x256
  inb_S256x256_S256x256_0_0 : ∀ a, (![0, 0] : Fin 2 → Nat) a + S256x256.size a ≤ S256x256.size a
  h_S256x256 : 0 < S256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S2048x64.size a
  hwx0_1 : ∀ i : grid0.Coords, EltTy.bits .f32 = 32 ∨ (Rect.block (s := S2048x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x1x64, .f32⟩
  | .hbm, ⟨2, _⟩ => ⟨S1x2048x64, .f32⟩
  | .hbm, ⟨3, _⟩ => ⟨S2048x2048x64, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  h_S_ : 0 < S_.numel

variable [Facts₀]

class Facts : Prop extends Facts₀ where

variable [Facts]
-- ==== Proof.PairFrameBits.lean ====
/-
  The run of the pairwise-distance kernel, at any reading `F` of its floats.

  The kernel is one region on an 8 × 8 grid. Point (i, j) is handed rows 256 i … 256 i + 255 of the argument array
  through its first window and rows 256 j … 256 j + 255 of THE SAME array through its second, and writes tile (i, j),
  256 × 256 entries, of the result through its third. The two input windows read one array, so the array is not held
  whole by either: it is held in two halves of the full share, the left half by the first window and the right half by
  the second, which is all a window that only reads needs; the halves are split off when the region is entered
  (`split_arrays`) and nothing ever writes through them, so the argument ends as it began.

  What the body leaves: it loads both row blocks whole, stores the whole tile as ONE store of the tile's function of the
  two blocks (`tileOf`), and touches nothing else; an input window's buffer holds its row block at every point, whether
  or not the block was fetched there (the first window's block index moves only every eighth point). So after the run
  the result array is, block by block, `tileOf` of the two row blocks of the point that wrote the block back
  (`run_main`: every array at the library's `arrAt … N` of these proof data), and the argument is unchanged (`frame`).
-/
import proofs.«101926_j32564442038291_1_alg».proof.Proof.Gen.Kernel.Launch
import proofs.«101926_j32564442038291_1_alg».proof.Proof.Gen.Kernel.Skeleton
import proofs.«101926_j32564442038291_1_alg».proof.Proof.Gen.Kernel.Points
import Idealize.ShloMosaic.Lib.Pipeline.FrameBody
import Idealize.ShloMosaic.Lib.Tactic

set_option maxRecDepth 16384

noncomputable section

namespace Cert.Kernel.PairFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- The program is the region alone, so the region finds every array as launched. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as launched: for the two input windows the 256 rows the point's
    first, resp. second, coordinate names. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rowsRect : Rect S256x64 := Rect.unit (s := S256x64) ![0, 0] S256x64.size inb_S256x64_S256x64_0_0
abbrev tileRect : Rect S256x256 := Rect.unit (s := S256x256) ![0, 0] S256x256.size inb_S256x256_S256x256_0_0

/-- The tile the body leaves in the result window's buffer, from the two row blocks: its one store, of the whole tile. -/
def tileOf (x0 x1 : Vec F S256x64 .f32) : Vec F S256x256 .f32 :=
  View.canon [⟨tileRect, k0_pay1 (View.ld x0 rowsRect) (View.ld x1 rowsRect)⟩]

/-- The one store covers the tile. -/
theorem tile_cover (p0 : Vec F S256x256 .f32) (y : S256x256.Idx) :
    ∃ pc ∈ ([⟨tileRect, p0⟩] : List (View.Piece (Elt F) S256x256 .f32)), y ∈ pc.1.set :=
  View.cover_of_tiled [⟨tileRect, p0⟩] S256x256.size (by rfl) y

set_option maxHeartbeats 1000000 in
/-- The body on whole buffers, the row blocks' at contents `x0`, `x1` and the tile's at anything: it ends with the row
    blocks' buffers as they were and the tile's at `tileOf x0 x1` (the load of the tile's buffer it makes before the store
    reads a value nothing uses). -/
theorem sound_kernel (c : Dev nD) (E : Set ℕ) (i : grid0.Coords)
    (arg2 : Memref sig .tc .vmem S256x64 .f32) (harg2 : arg2.IsWhole) (arg3 : Memref sig .tc .vmem S256x64 .f32) (harg3 : arg3.IsWhole)
    (arg4 : Memref sig .tc .vmem S256x256 .f32) (harg4 : arg4.IsWhole)
    (x0 : Vec F S256x64 .f32) (x1 : Vec F S256x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOf x0 x1)) -∗ K ⟨⟩))
      ⊢ wp frame (wpE (defs₀ (F := F)) Variants.none c none) E (cc0__mask_kernel i arg2 harg2 arg3 harg3 arg4 harg4) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- Per core: the arrays as launched; after the body at point `t` each input window's buffer at its row block and the
    result window's at `tileOf` of the two; between points nothing of the kernel's own (the core's scoped buffers that are
    no staging buffer, of which there is none); nothing owed. The argument array is held in halves: the first window holds
    the left half of the full share, the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows0 (c : Dev nD) (t : Fin cfg0.N) : (dats m 0 c).after 0 t = iblk m c 0 t := by dsimp only [dats]
theorem after_rows1 (c : Dev nD) (t : Fin cfg0.N) : (dats m 0 c).after 1 t = iblk m c 1 t := by dsimp only [dats]
theorem after_tile (c : Dev nD) (t : Fin cfg0.N) : (dats m 0 c).after 2 t = tileOf (iblk m c 0 t) (iblk m c 1 t) := by dsimp only [dats]

/-- The first window's buffer holds the point's first row block at every point: fetched there, or kept from the point
    before, whose first coordinate is the same. -/
theorem before_rows0 (c : Dev nD) (t : Fin cfg0.N) (d) : (dats m 0 c).before 0 t d = iblk m c 0 t :=
  ((dats m 0 c).before_in_eq_fetched 0 rfl (fun _ => rfl) (fun _ _ _ => rfl)
      (fun t => by rw [after_rows0]; unfold Dat.blockOf iblk; rw [A_eq]; try rfl) t d).trans
    (by unfold Dat.fetched Dat.blockOf iblk; rw [A_eq]; try rfl)

/-- The second window's buffer holds the point's second row block at every point. -/
theorem before_rows1 (c : Dev nD) (t : Fin cfg0.N) (d) : (dats m 0 c).before 1 t d = iblk m c 1 t :=
  ((dats m 0 c).before_in_eq_fetched 1 rfl (fun _ => rfl) (fun _ _ _ => rfl)
      (fun t => by rw [after_rows1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their row blocks, so `sound_kernel` applies; what is held between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows0, before_rows1]
  rw [show (dats m 0 c).Φ t.succ = (dats m 0 c).Φ t.castSucc from rfl,
    show (dats m 0 c).owesAt () t.succ = (dats m 0 c).owesAt () t.castSucc from rfl,
    after_rows0, after_rows1, after_tile]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.PairFrame

end
-- ==== Proof.PairRunBits.lean ====
/-
  The launch of the pairwise-distance kernel, and its frame.

  The region is entered holding every unscoped buffer whole at the full share. The argument array stands behind two
  windows; its full share is cut into its left and right halves, one per window (a full share is the sum of its halves),
  the result array goes to the third window whole. With the arrays so dealt the library's launch for windows that share
  an array runs the region from the body obligation; nothing else is routed (the program has no other unscoped buffer,
  no scratch, no semaphore of its own). At the end each window's array holds the library's `arrAt … N` of the proof
  data; for the argument, an input, that is its launch contents.
-/
import proofs.«101926_j32564442038291_1_alg».proof.Proof.PairFrameBits

set_option maxRecDepth 16384

noncomputable section

namespace Cert.Kernel.PairFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the three windows: the argument and the result. -/
theorem arr_refs : (Finset.univ.image (Pipeline.arrRef spec0) : Finset (Ref sig .tc)) = [main_arg0, main_v0].toFinset := by decide

/-- The two buffers behind the windows, each whole at the full share as launched, make the windows' arrays at entry:
    the argument's full share is its left half, for the first window, and its right half, for the second. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)) :=
  bigSep_eq_bigSepL_of_eq [main_arg0, main_v0] arr_refs (by decide) _

/-- The share each window holds its array at: the two readers a half each, the writer all. -/
theorem share_rows0 (c : Dev nD) : (dats m 0 c).share 0 = fullShare.left := rfl
theorem share_rows1 (c : Dev nD) : (dats m 0 c).share 1 = fullShare.right := rfl
theorem share_tile (c : Dev nD) : (dats m 0 c).share 2 = fullShare := rfl

/-- Before any point has run every window's array holds its launch contents. -/
theorem arrAt_zero (c : Dev nD) (w : Fin cfg0.W) : (dats m 0 c).arrAt w 0 = V m c (Pipeline.arrRef spec0 w) := A_eq m c w

/-- The windows' arrays, one by one: each a whole buffer, at its window's share. -/
theorem arrays_eq (c : Dev nD) (G : (w : Fin cfg0.W) → Buf (Elt F) ((cfg0.win w).arr.view.loc (c.tc : Thread nD τ))) :
    ((dats m 0 c).arrays G : sProp 𝕄)
      = iprop((((cfg0.win 0).arr.view.loc (c.tc : Thread nD τ)) ↦{fullShare.left} G 0)
          ∗ (((cfg0.win 1).arr.view.loc (c.tc : Thread nD τ)) ↦{fullShare.right} G 1)
          ∗ (((cfg0.win 2).arr.view.loc (c.tc : Thread nD τ)) ↦{fullShare} G 2)) := by
  unfold Dat.arrays
  rw [bigSep_W0, (arr_whole0 0).set_eq_univ, (arr_whole0 2).set_eq_univ,
    share_rows0, share_rows1, share_tile]

theorem split_arrays (c : Dev nD) :
    (Pipeline.arrBufs spec0 c (V m c) : sProp 𝕄) ⊢ (dats m 0 c).arrays ((dats m 0 c).arrAt · 0) := by
  rw [arrBufs_eq, arrays_eq, arrAt_zero, arrAt_zero, arrAt_zero]
  iintro ⟨Ha, Ho⟩
  ihave Ha' := (pointsTo_share (PosShare.mem_left_op_right fullShare)).1 $$ Ha
  icases Ha' with ⟨Hl, Hr⟩
  isplitl [Hl]; · iexact Hl
  isplitl [Hr]; · iexact Hr
  iexact Ho

/-! ## The run and the frame -/

/-- Between points the kernel holds nothing of its own but the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- At the compiled mesh, for any values, from any memory with zero counters: every weakly fair execution of @main
    terminates, and in every final state each window's array holds what the library computes from the proof data. -/
theorem run_main : θ_run defs (onTc (τ := τ) (main (F := F))) (s₀ m ρ)
    (fun r => ∀ c : Dev nD, ∀ w : Fin cfg0.W, r.2.mem (((cfgs 0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := split_arrays m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [Phi_eq]; iintro ⟨-, H⟩; iexact H)
    (hout := fun c => by
      rw [Phi_eq]; iintro H; isplitr; · iempintro
      iexact H)
    (QY := fun _ _ => True)
    (hY := fun c s' => by
      iintro ⟨-, -, HSI⟩; imodintro; isplitr; · ipureintro; trivial
      iexact HSI)
    (hQ := fun s h c w => (h c).1 w)

/-- THE FRAME, at any reading of the floats: the program runs to the end, faults nowhere, and its argument array ends as
    launched (an input window's array is never written: the library's `arrAt` of an input is its entry contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (run_main m ρ)

end Cert.Kernel.PairFrame

end
-- ==== Proof.PairFrame.lean ====
/-
  The run of the pairwise-distance kernel, at any reading `F` of its floats.

  The kernel is one region on an 8 × 8 grid. Point (i, j) is handed rows 256 i … 256 i + 255 of the argument array
  through its first window and rows 256 j … 256 j + 255 of THE SAME array through its second, and writes tile (i, j),
  256 × 256 entries, of the result through its third. The two input windows read one array, so the array is not held
  whole by either: it is held in two halves of the full share, the left half by the first window and the right half by
  the second, which is all a window that only reads needs; the halves are split off when the region is entered
  (`split_arrays`) and nothing ever writes through them, so the argument ends as it began.

  What the body leaves: it loads both row blocks whole, stores the whole tile as ONE store of the tile's function of the
  two blocks (`tileOf`), and touches nothing else; an input window's buffer holds its row block at every point, whether
  or not the block was fetched there (the first window's block index moves only every eighth point). So after the run
  the result array is, block by block, `tileOf` of the two row blocks of the point that wrote the block back
  (`run_main`: every array at the library's `arrAt … N` of these proof data), and the argument is unchanged (`frame`).
-/
import proofs.«101926_j32564442038291_1_alg».proof.Proof.Gen.KernelIdeal.Launch
import proofs.«101926_j32564442038291_1_alg».proof.Proof.Gen.KernelIdeal.Skeleton
import proofs.«101926_j32564442038291_1_alg».proof.Proof.Gen.KernelIdeal.Points
import Idealize.ShloMosaic.Lib.Pipeline.FrameBody
import Idealize.ShloMosaic.Lib.Tactic

set_option maxRecDepth 16384

noncomputable section

namespace Cert.KernelIdeal.PairFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- The program is the region alone, so the region finds every array as launched. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as launched: for the two input windows the 256 rows the point's
    first, resp. second, coordinate names. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rowsRect : Rect S256x64 := Rect.unit (s := S256x64) ![0, 0] S256x64.size inb_S256x64_S256x64_0_0
abbrev tileRect : Rect S256x256 := Rect.unit (s := S256x256) ![0, 0] S256x256.size inb_S256x256_S256x256_0_0

/-- The tile the body leaves in the result window's buffer, from the two row blocks: its one store, of the whole tile. -/
def tileOf (x0 x1 : Vec F S256x64 .f32) : Vec F S256x256 .f32 :=
  View.canon [⟨tileRect, k0_pay1 (View.ld x0 rowsRect) (View.ld x1 rowsRect)⟩]

/-- The one store covers the tile. -/
theorem tile_cover (p0 : Vec F S256x256 .f32) (y : S256x256.Idx) :
    ∃ pc ∈ ([⟨tileRect, p0⟩] : List (View.Piece (Elt F) S256x256 .f32)), y ∈ pc.1.set :=
  View.cover_of_tiled [⟨tileRect, p0⟩] S256x256.size (by rfl) y

set_option maxHeartbeats 1000000 in
/-- The body on whole buffers, the row blocks' at contents `x0`, `x1` and the tile's at anything: it ends with the row
    blocks' buffers as they were and the tile's at `tileOf x0 x1` (the load of the tile's buffer it makes before the store
    reads a value nothing uses). -/
theorem sound_kernel (c : Dev nD) (E : Set ℕ) (i : grid0.Coords)
    (arg2 : Memref sig .tc .vmem S256x64 .f32) (harg2 : arg2.IsWhole) (arg3 : Memref sig .tc .vmem S256x64 .f32) (harg3 : arg3.IsWhole)
    (arg4 : Memref sig .tc .vmem S256x256 .f32) (harg4 : arg4.IsWhole)
    (x0 : Vec F S256x64 .f32) (x1 : Vec F S256x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOf x0 x1)) -∗ K ⟨⟩))
      ⊢ wp frame (wpE (defs₀ (F := F)) Variants.none c none) E (cc0__mask_kernel i arg2 harg2 arg3 harg3 arg4 harg4) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- Per core: the arrays as launched; after the body at point `t` each input window's buffer at its row block and the
    result window's at `tileOf` of the two; between points nothing of the kernel's own (the core's scoped buffers that are
    no staging buffer, of which there is none); nothing owed. The argument array is held in halves: the first window holds
    the left half of the full share, the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows0 (c : Dev nD) (t : Fin cfg0.N) : (dats m 0 c).after 0 t = iblk m c 0 t := by dsimp only [dats]
theorem after_rows1 (c : Dev nD) (t : Fin cfg0.N) : (dats m 0 c).after 1 t = iblk m c 1 t := by dsimp only [dats]
theorem after_tile (c : Dev nD) (t : Fin cfg0.N) : (dats m 0 c).after 2 t = tileOf (iblk m c 0 t) (iblk m c 1 t) := by dsimp only [dats]

/-- The first window's buffer holds the point's first row block at every point: fetched there, or kept from the point
    before, whose first coordinate is the same. -/
theorem before_rows0 (c : Dev nD) (t : Fin cfg0.N) (d) : (dats m 0 c).before 0 t d = iblk m c 0 t :=
  ((dats m 0 c).before_in_eq_fetched 0 rfl (fun _ => rfl) (fun _ _ _ => rfl)
      (fun t => by rw [after_rows0]; unfold Dat.blockOf iblk; rw [A_eq]; try rfl) t d).trans
    (by unfold Dat.fetched Dat.blockOf iblk; rw [A_eq]; try rfl)

/-- The second window's buffer holds the point's second row block at every point. -/
theorem before_rows1 (c : Dev nD) (t : Fin cfg0.N) (d) : (dats m 0 c).before 1 t d = iblk m c 1 t :=
  ((dats m 0 c).before_in_eq_fetched 1 rfl (fun _ => rfl) (fun _ _ _ => rfl)
      (fun t => by rw [after_rows1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their row blocks, so `sound_kernel` applies; what is held between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows0, before_rows1]
  rw [show (dats m 0 c).Φ t.succ = (dats m 0 c).Φ t.castSucc from rfl,
    show (dats m 0 c).owesAt () t.succ = (dats m 0 c).owesAt () t.castSucc from rfl,
    after_rows0, after_rows1, after_tile]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.PairFrame

end
-- ==== Proof.PairRun.lean ====
/-
  The launch of the pairwise-distance kernel, and its frame.

  The region is entered holding every unscoped buffer whole at the full share. The argument array stands behind two
  windows; its full share is cut into its left and right halves, one per window (a full share is the sum of its halves),
  the result array goes to the third window whole. With the arrays so dealt the library's launch for windows that share
  an array runs the region from the body obligation; nothing else is routed (the program has no other unscoped buffer,
  no scratch, no semaphore of its own). At the end each window's array holds the library's `arrAt … N` of the proof
  data; for the argument, an input, that is its launch contents.
-/
import proofs.«101926_j32564442038291_1_alg».proof.Proof.PairFrame

set_option maxRecDepth 16384

noncomputable section

namespace Cert.KernelIdeal.PairFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the three windows: the argument and the result. -/
theorem arr_refs : (Finset.univ.image (Pipeline.arrRef spec0) : Finset (Ref sig .tc)) = [main_arg0, main_v0].toFinset := by decide

/-- The two buffers behind the windows, each whole at the full share as launched, make the windows' arrays at entry:
    the argument's full share is its left half, for the first window, and its right half, for the second. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)) :=
  bigSep_eq_bigSepL_of_eq [main_arg0, main_v0] arr_refs (by decide) _

/-- The share each window holds its array at: the two readers a half each, the writer all. -/
theorem share_rows0 (c : Dev nD) : (dats m 0 c).share 0 = fullShare.left := rfl
theorem share_rows1 (c : Dev nD) : (dats m 0 c).share 1 = fullShare.right := rfl
theorem share_tile (c : Dev nD) : (dats m 0 c).share 2 = fullShare := rfl

/-- Before any point has run every window's array holds its launch contents. -/
theorem arrAt_zero (c : Dev nD) (w : Fin cfg0.W) : (dats m 0 c).arrAt w 0 = V m c (Pipeline.arrRef spec0 w) := A_eq m c w

/-- The windows' arrays, one by one: each a whole buffer, at its window's share. -/
theorem arrays_eq (c : Dev nD) (G : (w : Fin cfg0.W) → Buf (Elt F) ((cfg0.win w).arr.view.loc (c.tc : Thread nD τ))) :
    ((dats m 0 c).arrays G : sProp 𝕄)
      = iprop((((cfg0.win 0).arr.view.loc (c.tc : Thread nD τ)) ↦{fullShare.left} G 0)
          ∗ (((cfg0.win 1).arr.view.loc (c.tc : Thread nD τ)) ↦{fullShare.right} G 1)
          ∗ (((cfg0.win 2).arr.view.loc (c.tc : Thread nD τ)) ↦{fullShare} G 2)) := by
  unfold Dat.arrays
  rw [bigSep_W0, (arr_whole0 0).set_eq_univ, (arr_whole0 2).set_eq_univ,
    share_rows0, share_rows1, share_tile]

theorem split_arrays (c : Dev nD) :
    (Pipeline.arrBufs spec0 c (V m c) : sProp 𝕄) ⊢ (dats m 0 c).arrays ((dats m 0 c).arrAt · 0) := by
  rw [arrBufs_eq, arrays_eq, arrAt_zero, arrAt_zero, arrAt_zero]
  iintro ⟨Ha, Ho⟩
  ihave Ha' := (pointsTo_share (PosShare.mem_left_op_right fullShare)).1 $$ Ha
  icases Ha' with ⟨Hl, Hr⟩
  isplitl [Hl]; · iexact Hl
  isplitl [Hr]; · iexact Hr
  iexact Ho

/-! ## The run and the frame -/

/-- Between points the kernel holds nothing of its own but the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- At the compiled mesh, for any values, from any memory with zero counters: every weakly fair execution of @main
    terminates, and in every final state each window's array holds what the library computes from the proof data. -/
theorem run_main : θ_run defs (onTc (τ := τ) (main (F := F))) (s₀ m ρ)
    (fun r => ∀ c : Dev nD, ∀ w : Fin cfg0.W, r.2.mem (((cfgs 0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := split_arrays m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [Phi_eq]; iintro ⟨-, H⟩; iexact H)
    (hout := fun c => by
      rw [Phi_eq]; iintro H; isplitr; · iempintro
      iexact H)
    (QY := fun _ _ => True)
    (hY := fun c s' => by
      iintro ⟨-, -, HSI⟩; imodintro; isplitr; · ipureintro; trivial
      iexact HSI)
    (hQ := fun s h c w => (h c).1 w)

/-- THE FRAME, at any reading of the floats: the program runs to the end, faults nowhere, and its argument array ends as
    launched (an input window's array is never written: the library's `arrAt` of an input is its entry contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans (A_eq m c 0))) (run_main m ρ)

end Cert.KernelIdeal.PairFrame

end
-- ==== Proof.Spec.lean ====
/-
  The function both programs compute, on the extended reals: for an array `x` of 2048 rows of 64 numbers, the entry
  at (i, j) of the result is `exp (-(∑ k, |x i k - x j k|))`, the exponential of minus the L1 distance between rows
  `i` and `j`. Stated once for the whole array and once for a tile of 256 × 256 entries computed from two blocks of
  256 rows (the rows `i` ranges over and the rows `j` ranges over): a tile of the whole is the tile function of the two
  row blocks, entry by entry, because an entry reads nothing but its own two rows.
-/
import Idealize.ShloMosaic.PureOps.Ideal
import Idealize.ShloMosaic.Lib.ValueIdx

noncomputable section

namespace Cert.PairwiseL1

open Idealize.ShloMosaic Idealize.ShloMosaic.ValueIdx

/-- `exp (-‖row i - row j‖₁)` for every pair of the 2048 rows of `x`. -/
def expNegL1 (x : FVec Ideal ⟨2, ![2048, 64]⟩ .f32) : FVec Ideal ⟨2, ![2048, 2048]⟩ .f32 :=
  fun i => Ideal.exp (-(∑ k : Fin 64, FloatOps.absf (x (ix2 (i 0) k) - x (ix2 (i 1) k))))

/-- The same for a tile: `exp (-‖row p of a - row q of b‖₁)` for 256 rows `a` against 256 rows `b`. -/
def expNegL1Tile (a b : FVec Ideal ⟨2, ![256, 64]⟩ .f32) : FVec Ideal ⟨2, ![256, 256]⟩ .f32 :=
  fun j => Ideal.exp (-(∑ k : Fin 64, FloatOps.absf (a (ix2 (j 0) k) - b (ix2 (j 1) k))))

theorem expNegL1_apply (x : FVec Ideal ⟨2, ![2048, 64]⟩ .f32) (i : Fin 2048) (j : Fin 2048) :
    expNegL1 x (ix2 i j) = Ideal.exp (-(∑ k : Fin 64, FloatOps.absf (x (ix2 i k) - x (ix2 j k)))) := rfl

theorem expNegL1Tile_apply (a b : FVec Ideal ⟨2, ![256, 64]⟩ .f32) (p : Fin 256) (q : Fin 256) :
    expNegL1Tile a b (ix2 p q) = Ideal.exp (-(∑ k : Fin 64, FloatOps.absf (a (ix2 p k) - b (ix2 q k)))) := rfl

end Cert.PairwiseL1

end
-- ==== Proof.TileValue.lean ====
/-
  The value a tile of the kernel stores, entry by entry. The kernel's stored vector is
  `exp (0 - Σ_k |A[p, ·, k] - B[·, q, k]|)` where `A` is the first block of 256 rows reshaped to 256 × 1 × 64 and
  repeated along the middle axis, `B` the second block reshaped to 1 × 256 × 64 and repeated along the leading axis, and
  the sum runs over the last axis. Read at the entry (p, q): `A` at (p, q, k) is row p of the first block at k, `B` at
  (p, q, k) is row q of the second block at k, the sum over the last axis is the sum over k of the 64 absolute
  differences, and `0 - s = -s` on the extended reals. So the entry is `exp (-(Σ_k |x0 p k - x1 q k|))`: the tile
  function of the specification.
-/
import proofs.«101926_j32564442038291_1_alg».proof.Proof.Spec
import proofs.«101926_j32564442038291_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileValue

open Idealize.ShloMosaic Idealize.ShloMosaic.ValueIdx
open Cert.KernelIdeal Cert.KernelIdeal.Gen

/-- The first block, reshaped to 256 × 1 × 64 and repeated along the middle axis, reads row `p` at (p, q, k): the
    repetition forgets `q`, and (p, 0, k) and (p, k) sit at the same row-major position `64 p + k`. -/
theorem rows_apply (x : FVec Ideal S256x64 .f32) (p q : Fin 256) (k : Fin 64) :
    broadcastTo S256x256x64 (shapeCast S256x1x64 x shapeCasts_S256x64_S256x1x64) broadcasts_S256x1x64_S256x256x64 (ix3 p q k)
      = x (ix2 p k) := by
  refine (broadcastTo_apply _ _ (ix3 p q k) (ix3 p (0 : Fin 1) k) ?_).trans ?_
  · intro a
    match a with
    | ⟨0, _⟩ => rfl
    | ⟨1, _⟩ => rfl
    | ⟨2, _⟩ => rfl
  · refine shapeCast_apply x _ (ix3 p (0 : Fin 1) k) (ix2 p k) ?_
    rw [Shape.rowMajor_val_two, Shape.rowMajor_val_three]
    show p.val * 64 + k.val = (p.val * 1 + 0) * 64 + k.val
    omega

/-- The second block, reshaped to 1 × 256 × 64 and repeated along the leading axis, reads row `q` at (p, q, k): the
    repetition forgets `p`, and (0, q, k) and (q, k) sit at the same row-major position `64 q + k`. -/
theorem cols_apply (x : FVec Ideal S256x64 .f32) (p q : Fin 256) (k : Fin 64) :
    broadcastTo S256x256x64 (shapeCast S1x256x64 x shapeCasts_S256x64_S1x256x64) broadcasts_S1x256x64_S256x256x64 (ix3 p q k)
      = x (ix2 q k) := by
  refine (broadcastTo_apply _ _ (ix3 p q k) (ix3 (0 : Fin 1) q k) ?_).trans ?_
  · intro a
    match a with
    | ⟨0, _⟩ => rfl
    | ⟨1, _⟩ => rfl
    | ⟨2, _⟩ => rfl
  · refine shapeCast_apply x _ (ix3 (0 : Fin 1) q k) (ix2 q k) ?_
    rw [Shape.rowMajor_val_two, Shape.rowMajor_val_three]
    show q.val * 64 + k.val = (0 * 256 + q.val) * 64 + k.val
    omega

/-- The sum over the last axis of a 256 × 256 × 64 vector, read at (p, q): the sum over `k` of its entries (p, q, k). -/
theorem laneSum_apply (v : FVec Ideal S256x256x64 .f32) (p q : Fin 256) :
    multiReduction (F := Ideal) .add [2] S256x256 v 0x00000000#32 reduces_S256x256x64_S256x256 (.inl rfl) rfl (ix2 p q)
      = ∑ k : Fin 64, v (ix3 p q k) := by
  refine (Ideal.multiReduction_add_single v 0x00000000#32 reduces_S256x256x64_S256x256 (.inl rfl) rfl (ix2 p q)).trans ?_
  refine Finset.sum_congr rfl fun k _ => congrArg v ?_
  funext c
  match c with
  | ⟨0, _⟩ => rfl
  | ⟨1, _⟩ => rfl
  | ⟨2, _⟩ => rfl

/-- The absolute difference of the two repeated blocks at (p, q, k) is `|x0 p k - x1 q k|`. -/
theorem absDiff_apply (x0 x1 : FVec Ideal S256x64 .f32) (p q : Fin 256) (k : Fin 64) :
    absf (subf (broadcastTo S256x256x64 (shapeCast S256x1x64 x0 shapeCasts_S256x64_S256x1x64) broadcasts_S256x1x64_S256x256x64)
               (broadcastTo S256x256x64 (shapeCast S1x256x64 x1 shapeCasts_S256x64_S1x256x64) broadcasts_S1x256x64_S256x256x64))
        (ix3 p q k)
      = FloatOps.absf (x0 (ix2 p k) - x1 (ix2 q k)) :=
  congrArg FloatOps.absf (congrArg₂ (fun a b : EReal => a - b) (rows_apply x0 p q k) (cols_apply x1 p q k))

/-- The kernel's stored vector at the entry (p, q). -/
theorem pay_apply (x0 x1 : FVec Ideal S256x64 .f32) (p q : Fin 256) :
    k0_pay1 (F := Ideal) x0 x1 (ix2 p q)
      = Ideal.exp (-(∑ k : Fin 64, FloatOps.absf (x0 (ix2 p k) - x1 (ix2 q k)))) := by
  unfold k0_pay1
  refine congrArg Ideal.exp ?_
  refine (congrArg₂ (fun a b : EReal => a - b) Ideal.ofBits_zero_f32
    ((laneSum_apply _ p q).trans (Finset.sum_congr rfl fun k _ => absDiff_apply x0 x1 p q k))).trans ?_
  exact zero_sub _

/-- The kernel's stored vector is the specification's tile function of the two row blocks. -/
theorem pay_eq (x0 x1 : Vec Ideal Cert.KernelIdeal.S256x64 .f32) :
    Cert.KernelIdeal.Gen.k0_pay1 (F := Ideal) x0 x1 = Cert.PairwiseL1.expNegL1Tile x0 x1 := by
  funext j
  obtain ⟨p, q, rfl⟩ : ∃ (p q : Fin 256), j = ix2 p q := ⟨j 0, j 1, eq_ix2 j⟩
  exact pay_apply x0 x1 p q

end Cert.KernelIdeal.TileValue

end
-- ==== Proof.PairValue.lean ====
/-
  The result array after the run, at the ideal reading: `exp (-‖row i - row j‖₁)` at every (i, j).

  Point `t` of the grid has coordinates (a, b), 0 ≤ a, b < 8; its first window's block is rows 256 a … 256 a + 255 of the
  argument, its second window's block rows 256 b … 256 b + 255, and the block it writes back is tile (a, b) of the result.
  Entry (p, q) of that tile is the tile function of the two row blocks, which reads row p of the first and row q of the
  second, that is rows 256 a + p and 256 b + q of the argument: exactly what the whole-array function reads at
  (256 a + p, 256 b + q). So every write-back is a block of ONE function of the argument; the 64 tiles cover the
  2048 × 2048 result (entry (i, j) lies in tile (i / 256, j / 256)), and the array ends holding that function.
-/
import proofs.«101926_j32564442038291_1_alg».proof.Proof.PairRun
import proofs.«101926_j32564442038291_1_alg».proof.Proof.TileValue
import Idealize.ShloMosaic.Lib.Pipeline.Value

set_option maxRecDepth 16384

noncomputable section

namespace Cert.KernelIdeal.PairValue

open Cert.KernelIdeal Cert.KernelIdeal.Gen Cert.KernelIdeal.PairFrame Cert.PairwiseL1
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem zero_off : (![0, 0] : Fin 2 → Nat) = fun _ => 0 := funext fun a => by fin_cases a <;> rfl

/-- The printed index maps over the grid: the first window's block row is the tile's row, the second window's block row
    is the tile's column, neither moves along the 64 columns, and the tile's indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- The argument array as launched, at its literal type. -/
abbrev argArr (c : Dev nD) : FVec Ideal S2048x64 .f32 := V m c main_arg0

/-- WHAT POINT `t` WRITES BACK is block `t` of `expNegL1` of the argument. -/
theorem flushed_eq (c : Dev nD) (t : Fin cfg0.N) :
    (dats m 0 c).flushed 2 t = ((cfg0.win 2).blk t).view.read (Elt Ideal) (expNegL1 (V m c main_arg0)) := by
  show (cfg0.win 2).cut (grid0.coords t) ((dats m 0 c).after 2 t) = _
  rw [after_tile]
  unfold tileOf
  rw [View.canon_unit_zero zero_off]
  simp only [View.ld_unit_zero (S := S256x64) zero_off]
  rw [TileValue.pay_eq]
  obtain ⟨e0, e1, e2, e3, e4, e5⟩ := idx_facts t
  funext j
  show Ideal.exp (-(∑ k : Fin 64, FloatOps.absf (argArr m c (((cfg0.win 0).blk t).view.emb (ix2 (j 0) k)) - argArr m c (((cfg0.win 1).blk t).view.emb (ix2 (j 1) k)))))
    = Ideal.exp (-(∑ k : Fin 64, FloatOps.absf (argArr m c (ix2 ((((cfg0.win 2).blk t).view.emb j) 0) k) - argArr m c (ix2 ((((cfg0.win 2).blk t).view.emb j) 1) k))))
  have h0 : ∀ k : Fin 64, ((cfg0.win 0).blk t).view.emb (ix2 (j 0) k) = ix2 ((((cfg0.win 2).blk t).view.emb j) 0) k := by
    intro k; funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 64 + 1 * k.val = k.val; omega
  have h1 : ∀ k : Fin 64, ((cfg0.win 1).blk t).view.emb (ix2 (j 1) k) = ix2 ((((cfg0.win 2).blk t).view.emb j) 1) k := by
    intro k; funext a; apply Fin.ext
    match a with
    | ⟨0, _⟩ => show win0_1.index t (0 : Fin 2) * 256 + 1 * (j 1).val = win0_2.index t (1 : Fin 2) * 256 + 1 * (j 1).val; omega
    | ⟨1, _⟩ => show win0_1.index t (1 : Fin 2) * 64 + 1 * k.val = k.val; omega
  simp only [h0, h1]
  rfl

/-- An index of the result is in point `t`'s tile iff each coordinate is in the tile's range on its axis. -/
theorem mem_blk (t : Fin cfg0.N) (i : S2048x2048.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0).slice (win0_2.rect t)).set ↔ _
  rw [View.set_slice_whole, Rect.mem_set_unit]
  exact Iff.rfl

/-- The tiles cover the result: entry (i, j) lies in tile (i / 256, j / 256), and every point writes its tile back. -/
theorem covered (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- THE RESULT ARRAY after the run is `expNegL1` of the argument as launched. -/
theorem final (c : Dev nD) : (dats m 0 c).arrAt 2 cfg0.N = expNegL1 (m ((c : Thread nD τ).loc main_arg0)) :=
  (dats m 0 c).arrAt_eq_of_cover 2 (expNegL1 (V m c main_arg0)) (fun t _ => flushed_eq m c t) covered

/-- The run, read: the result at `expNegL1` of the argument, the argument unchanged. -/
theorem run : θ_run defs (onTc (τ := τ) (main (F := Ideal))) ⟨m, fun _ => 0, ρ⟩ fun r => ∀ c : Dev nD,
      r.2.mem ((c : Thread nD τ).loc main_v0) = expNegL1 (m ((c : Thread nD τ).loc main_arg0))
      ∧ r.2.mem ((c : Thread nD τ).loc main_arg0) = m ((c : Thread nD τ).loc main_arg0) :=
  (θ_run defs _ _).mono (fun r h c => ⟨((h c) 2).trans (final m c),
      ((h c) 0).trans (((dats m 0 c).arrAt_in 0 rfl _).trans (A_eq m c 0))⟩)
    (run_main m ρ)

end Cert.KernelIdeal.PairValue

end
-- ==== Proof.RefIsSpec.lean ====
/-
  The reference program, read one entry at a time, is the specification's function: at the pair of rows (i, j) it
  takes the 64 differences `x i k - x j k`, their absolute values, the sum of these started from the zero word, the
  negation of the sum and its exponential. On the extended reals the host's exponential, negation and absolute value
  are `Ideal.exp`, unary minus and `FloatOps.absf`, the zero word is `0`, and `0 + s = s`; the two chains of
  broadcasts read `x` at (i, k) and at (j, k).
-/
import proofs.«101926_j32564442038291_1_alg».proof.Proof.Spec
import proofs.«101926_j32564442038291_1_alg».proof.Proof.Gen.ReferenceIdeal.Read

noncomputable section

namespace Cert.ReferenceIdeal.RefValue

open Idealize.ShloMosaic Idealize.ShloMosaic.ValueIdx Cert.ReferenceIdeal Cert.ReferenceIdeal.Read

/-- The left operand of the subtraction at (i, j, k) is read from `x` at (i, k): the broadcast along the middle
    axis forgets `j`. -/
theorem idx_left (i j : Fin 2048) (k : Fin 64) :
    idx_main_v0 (idx_main_v2 (idx_main_v6 (ix2 i j) k)) = ix2 i k :=
  funext fun a => Fin.ext (by match a with | ⟨0, _⟩ => rfl | ⟨1, _⟩ => rfl)

/-- The right operand of the subtraction at (i, j, k) is read from `x` at (j, k): the broadcast along the leading
    axis forgets `i`. -/
theorem idx_right (i j : Fin 2048) (k : Fin 64) :
    idx_main_v1 (idx_main_v3 (idx_main_v6 (ix2 i j) k)) = ix2 j k :=
  funext fun a => Fin.ext (by match a with | ⟨0, _⟩ => rfl | ⟨1, _⟩ => rfl)

/-- The reference's result is `exp (-‖row i - row j‖₁)` at every pair (i, j). -/
theorem ref_eq (x : FVec Ideal Cert.ReferenceIdeal.S2048x64 .f32) :
    Cert.ReferenceIdeal.Read.val_main_v8 (F := Ideal) x = Cert.PairwiseL1.expNegL1 x := by
  funext i
  obtain ⟨p, q, rfl⟩ : ∃ (p q : Fin 2048), i = ix2 p q := ⟨i 0, i 1, eq_ix2 i⟩
  rw [Cert.PairwiseL1.expNegL1_apply, val_main_v8_apply, val_main_v7_apply, val_main_v6_apply,
    val_main_cst_apply]
  simp only [val_main_v5_apply, val_main_v4_apply, val_main_v2_apply, val_main_v0_apply, val_main_v3_apply,
    val_main_v1_apply, idx_left, idx_right, Ideal.hostUnary_exp_def, Ideal.hostNegf_def, Ideal.negf_def,
    Ideal.hostAbsf_def, Ideal.subf_def, Ideal.ofBits_def, Ideal.ofBits_zero_f32, zero_add]

end Cert.ReferenceIdeal.RefValue

end
-- ==== Proof.lean ====
/-
  The certificate of the pairwise-distance kernel against its reference.

  Both programs take an array `x` of 2048 rows of 64 numbers and return, beside `x` itself, the 2048 × 2048 array whose
  entry (i, j) is `exp (-(∑ k, |x i k - x j k|))`. The reference forms all 2048 × 2048 × 64 differences at once; the kernel
  forms them tile by tile, 256 rows against 256 rows, on an 8 × 8 grid, reading the one array through two windows. On the
  extended reals the two compute the same function entry by entry: an entry depends only on its own two rows, the sum over
  `k` is the same 64 terms in the same order, the kernel's `0 - s` is the reference's `-s`, and its zero accumulator adds
  nothing. No law of arithmetic that could fail at an infinity is used, so the precondition (finite inputs) is never opened.

  * The three frames: each kernel program by its run (the array behind the two input windows held in two halves of the full
    share and never written); the reference by its run with the result dropped.
  * `preserves`: the idealization rewrote nothing, the conjunct is `True`.
  * `algebraic`: the kernel's result array is `expNegL1` of its argument (every tile written back is a block of that one
    function, and the tiles cover the array), the reference's result is `expNegL1` of its argument (read entry by entry), and
    the arguments agree.
-/
import proofs.«101926_j32564442038291_1_alg».proof.Defs
import proofs.«101926_j32564442038291_1_alg».proof.Proof.Gen.Kernel
import proofs.«101926_j32564442038291_1_alg».proof.Proof.Gen.KernelIdeal
import proofs.«101926_j32564442038291_1_alg».proof.Proof.Gen.ReferenceIdeal
import proofs.«101926_j32564442038291_1_alg».proof.Proof.Gen.Pre_finite_inputs
import proofs.«101926_j32564442038291_1_alg».proof.Proof.Gen.ReferenceIdeal.Run
import proofs.«101926_j32564442038291_1_alg».proof.Proof.Gen.ReferenceIdeal.Read
import proofs.«101926_j32564442038291_1_alg».proof.Proof.PairRunBits
import proofs.«101926_j32564442038291_1_alg».proof.Proof.PairValue
import proofs.«101926_j32564442038291_1_alg».proof.Proof.RefIsSpec

noncomputable section

namespace Cert.Proof

open Idealize.ShloMosaic Idealize.ShloMosaic.TcCoe Idealize.SL.Sem

theorem frame_kernel : Cert.frame_Kernel := fun m ρ _ => Cert.Kernel.PairFrame.frame m ρ

theorem frame_kernelIdeal : Cert.frame_KernelIdeal := fun m ρ _ => Cert.KernelIdeal.PairFrame.frame m ρ

theorem frame_reference : Cert.frame_ReferenceIdeal := fun m ρ _ =>
  (θ_run Cert.ReferenceIdeal.defs _ _).mono (fun _ h c => (h c).2.1) (Cert.ReferenceIdeal.Value.run (F := Ideal) m ρ)

theorem preserves : Cert.preserves_Kernel_KernelIdeal := trivial

/-- Both runs end with the result at `expNegL1` of the argument as launched and the argument unchanged; the arguments
    agree, so the results do. -/
theorem algebraic : Cert.algebraic_KernelIdeal_ReferenceIdeal := by
  intro m ρ m' ρ' _ hagree
  refine ⟨fun c => Cert.PairwiseL1.expNegL1 (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg0), ?_, ?_⟩
  · exact (θ_run Cert.KernelIdeal.defs _ _).mono (fun _ h c => ⟨(h c).1, (h c).2, (h c).2⟩)
      (Cert.KernelIdeal.PairValue.run m ρ)
  · exact (θ_run Cert.ReferenceIdeal.defs _ _).mono
      (fun _ h c => ⟨(h c).1.trans ((Cert.ReferenceIdeal.Read.val_main_v8_eq _).trans
          ((Cert.ReferenceIdeal.RefValue.ref_eq _).trans (congrArg Cert.PairwiseL1.expNegL1 (hagree c)))),
        (h c).2.1.trans (hagree c), (h c).2.1⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
